-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S40x128 : Shape := ⟨2, ![40, 128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S40x128 : S_.BroadcastsInDim S40x128 (![] : Fin 0 → Fin S40x128.rank)
  reducesTo_S40x128_S_d0_1 : S40x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_v13 : IVec S_ 1) (main_v15 : IVec S800000 32) (main_v16 : IVec S800000 32) : IVec S_ 1 :=
  let main_v17 : IVec S800000 1 := cmpi .sge main_v15 main_v16
  let main_v18 : IVec S1x800000 32 := (extractStridedSlice S1x800000 ![0, 0] · slices_S2x800000_S1x800000_0_0) main_arg1
  let main_v19 : IVec S800000 32 := shapeCast S800000 main_v18 shapeCasts_S1x800000_S800000
  let main_c_5 : IVec S_ 32 := constantI S_ 32 50000#32
  let main_v20 : IVec S800000 32 := broadcastInDim S800000 ![] bcast_S_S800000 main_c_5
  let main_v21 : IVec S800000 1 := cmpi .slt main_v19 main_v20
  let main_v22 : IVec S800000 1 := andi main_v17 main_v21
  let main_c_6 : IVec S_ 1 := constantI S_ 1 1#1
  let main_v23 : IVec S_ 1 := (fun x v => Host.reduce IntOp.andi x v reducesTo_S800000_S_d0 h_S_) main_v22 main_c_6
  let main_v24 : IVec S_ 1 := andi main_v13 main_v23
  main_v24

def fn {F : FTy → Type} [FloatOps F] (main_arg0 : FVec F S50000x128 .f32) (main_arg1 : IVec S2x800000 32) (main_arg2 : FVec F S128x128 .f32) (main_arg3 : FVec F S40x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S40x128 .f32 := Host.absf main_arg3
  let main_cst_2 : FVec F S_ .f32 := constant S_ .f32 0x7F800000#32
  let main_v10 : FVec F S40x128 .f32 := broadcastInDim S40x128 ![] bcast_S_S40x128 main_cst_2
  let main_v11 : IVec S40x128 1 := cmpf .olt main_v9 main_v10
  let main_c_3 : IVec S_ 1 := constantI S_ 1 1#1
  let main_v12 : IVec S_ 1 := (fun x v => Host.reduce IntOp.andi x v reducesTo_S40x128_S_d0_1 h_S_) main_v11 main_c_3
  let main_v13 : IVec S_ 1 := andi main_v8 main_v12
  let main_v14 : IVec S1x800000 32 := (extractStridedSlice S1x800000 ![0, 0] · slices_S2x800000_S1x800000_0_0) main_arg1
  let main_v15 : IVec S800000 32 := shapeCast S800000 main_v14 shapeCasts_S1x800000_S800000
  let main_c_4 : IVec S_ 32 := constantI S_ 32 0#32
  let main_v16 : IVec S800000 32 := broadcastInDim S800000 ![] bcast_S_S800000 main_c_4
  fn_part1 (F := F) main_arg1 main_v13 main_v15 main_v16
-- ==== Kernel.lean ====
abbrev S50000x128 : Shape := ⟨2, ![50000, 128]⟩
abbrev S2x800000 : Shape := ⟨2, ![2, 800000]⟩
abbrev S128x128 : Shape := ⟨2, ![128, 128]⟩
abbrev S40x128 : Shape := ⟨2, ![40, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S5000x128 : Shape := ⟨2, ![5000, 128]⟩
abbrev S128x40 : Shape := ⟨2, ![128, 40]⟩
abbrev S50000x40 : Shape := ⟨2, ![50000, 40]⟩
abbrev S5000x40 : Shape := ⟨2, ![5000, 40]⟩

abbrev nBuf : Space → Nat
  | .hbm => 66
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S40x128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S1, .i32⟩
  | .hbm, ⟨17, _⟩ => ⟨S_, .i32⟩
  | .hbm, ⟨18, _⟩ => ⟨S800000x1, .i32⟩
  | .hbm, ⟨19, _⟩ => ⟨S800000x1, .i1⟩
  | .hbm, ⟨20, _⟩ => ⟨S1x1, .i32⟩
  | .hbm, ⟨21, _⟩ => ⟨S800000x1, .i32⟩
  | .hbm, ⟨22, _⟩ => ⟨S800000x1, .i1⟩
  | .hbm, ⟨23, _⟩ => ⟨S800000x1, .i1⟩
  | .hbm, ⟨24, _⟩ => ⟨S_, .i1⟩
  | .hbm, ⟨25, _⟩ => ⟨S800000, .i1⟩
  | .hbm, ⟨26, _⟩ => ⟨S800000x128, .f32⟩
  | .hbm, ⟨27, _⟩ => ⟨S800000x128, .i1⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x128, .f32⟩
  | .hbm, ⟨56, _⟩ => ⟨S800000x128, .i1⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S128x40, .f32⟩
  | .hbm, ⟨65, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x40, .f32⟩
  | .local _ .vmem, ⟨12, _⟩ => ⟨S5000x40, .f32⟩
  | .local _ .vmem, ⟨13, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v10 : Ref sig .tc := ⟨.hbm, 59, rfl⟩
abbrev main_cst_0 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S40x128_S128x40_1_0 : S40x128.Transposes [1, 0] S128x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S40x128 : Shape := ⟨2, ![40, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x40 : Shape := ⟨2, ![128, 40]⟩
abbrev S50000x40 : Shape := ⟨2, ![50000, 40]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S40x128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S128x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S128x40, .f32⟩
  | .hbm, ⟨52, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  transposes_S40x128_S128x40_1_0 : S40x128.Transposes [1, 0] S128x40
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.HostTerms.lean ====
/-
  The host side of the kernel's program, as terms: the operations that turn the edge list and a feature array into the
  neighbour aggregate.

  Row 0 of the edge list holds each edge's source node and row 1 its destination.  A layer's aggregate adds, into row
  `dst e` of a zero array, the feature row gathered at `src e`, for every edge `e`.  The kernel's program gathers with a
  fill: an entry whose (wrapped) index falls outside [0, 49999] is replaced by a fill value, decided by a mask computed from
  the index column.
-/
import proofs.«400647_j82197084111148_1_alg».proof.KernelIdeal
import Idealize.ShloMosaic.PureOps.Ideal

noncomputable section

namespace Cert.KernelIdeal.HostTerms

open Idealize.ShloMosaic Cert.KernelIdeal
open Cert.KernelIdeal.Facts₀ Cert.KernelIdeal.Facts

variable [Cert.KernelIdeal.Facts]

/-- Row 0 of the edge list: the source node of every edge. -/
abbrev srcRow (ei : IVec S2x800000 32) : IVec S800000 32 :=
  shapeCast S800000 (extractStridedSlice S1x800000 ![0, 0] ei slices_S2x800000_S1x800000_0_0) shapeCasts_S1x800000_S800000

/-- Row 1 of the edge list: the destination node of every edge. -/
abbrev dstRow (ei : IVec S2x800000 32) : IVec S800000 32 :=
  shapeCast S800000 (extractStridedSlice S1x800000 ![1, 0] ei slices_S2x800000_S1x800000_1_0) shapeCasts_S1x800000_S800000

/-- A negative index wraps by the number of nodes. -/
abbrev wrapIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The wrapped indices as a column. -/
abbrev idxCol (v : IVec S800000 32) : IVec S800000x1 32 :=
  broadcastInDim S800000x1 ![0] bcast_S800000_S800000x1_0 (wrapIdx v)

/-- Per gathered entry: is the wrapped index inside [0, 49999]? -/
abbrev inRange (v : IVec S800000 32) : IVec S800000x128 1 :=
  broadcastInDim S800000x128 ![0] bcast_S800000_S800000x128_0
    (Host.reduce IntOp.andi
      (andi (cmpi .sge (idxCol v) (broadcastInDim S800000x1 ![] bcast_S_S800000x1 (constantI S_ 32 0#32)))
        (cmpi .sle (idxCol v) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The plain gather of feature rows at the wrapped source indices. -/
abbrev gatherRows (x : FVec Ideal S50000x128 .f32) (v : IVec S800000 32) : FVec Ideal S800000x128 .f32 :=
  Host.gather gather_S50000x128_S800000x1_S800000x128_1_0_n_n_0_1_1128 x (idxCol v)

/-- The gather with a fill, as the kernel's program computes it. -/
abbrev takeFill (x : FVec Ideal S50000x128 .f32) (v : IVec S800000 32) : FVec Ideal S800000x128 .f32 :=
  select (inRange v) (gatherRows x v)
    (broadcastInDim S800000x128 ![] bcast_S_S800000x128 (constant (F := Ideal) S_ .f32 0x7FC00000#32))

/-- Rows `u e` added into row `d e` of a zero array, over all edges. -/
abbrev scatterInto (d : IVec S800000 32) (u : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d) u

/-- The first layer's weights, transposed. -/
abbrev weights1 (w : FVec Ideal S128x128 .f32) : FVec Ideal S128x128 .f32 :=
  transpose S128x128 [1, 0] w transposes_S128x128_S128x128_1_0

/-- The second layer's weights, transposed. -/
abbrev weights2 (w : FVec Ideal S40x128 .f32) : FVec Ideal S128x40 .f32 :=
  transpose S128x40 [1, 0] w transposes_S40x128_S128x40_1_0

end Cert.KernelIdeal.HostTerms

end
-- ==== Proof.Spec.lean ====
/-
  The two graph-convolution layers as functions of whole arrays, over the extended reals.

  A layer adds to every node's feature row the sum of its in-neighbours' rows (the aggregate `A`), and multiplies the
  combined row by the transposed weight matrix: entry (i, j) of the product is the sum over the 128 features k of
  (X (i, k) + A (i, k)) * Wt (k, j).  The first layer clips the product below at zero; the second does not.
-/
import Idealize.ShloMosaic.PureOps.Ideal
import Idealize.ShloMosaic.Lib.ValueIdx

noncomputable section

namespace Cert.Gin

open Idealize.ShloMosaic Idealize.ShloMosaic.ValueIdx

/-- Node features: 50000 nodes by 128 features. -/
abbrev SNode : Shape := ⟨2, ![50000, 128]⟩
/-- The first layer's transposed weights: 128 input features by 128 output features. -/
abbrev SW1t : Shape := ⟨2, ![128, 128]⟩
/-- The second layer's transposed weights: 128 input features by 40 classes. -/
abbrev SW2t : Shape := ⟨2, ![128, 40]⟩
/-- The logits: 50000 nodes by 40 classes. -/
abbrev SOut : Shape := ⟨2, ![50000, 40]⟩

/-- The first layer before clipping: row `i` of `X + A` against column `j` of `Wt`. -/
def combine (X A : SNode.Idx → EReal) (Wt : SW1t.Idx → EReal) : SNode.Idx → EReal :=
  fun i => ∑ k : Fin 128, (X (ix2 (i 0) k) + A (ix2 (i 0) k)) * Wt (ix2 k (i 1))

/-- The first layer: the combined product clipped below at zero. -/
def hidden (X A : SNode.Idx → EReal) (Wt : SW1t.Idx → EReal) : SNode.Idx → EReal :=
  fun i => max (combine X A Wt i) 0

/-- The second layer: row `i` of `X + A` against column `j` of the 128-by-40 matrix `Wt`. -/
def logits (X A : SNode.Idx → EReal) (Wt : SW2t.Idx → EReal) : SOut.Idx → EReal :=
  fun i => ∑ k : Fin 128, (X (ix2 (i 0) k) + A (ix2 (i 0) k)) * Wt (ix2 k (i 1))

end Cert.Gin

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Region0.lean ====
/-
  The first layer's kernel region: what its output array holds when the region ends.

  The region walks the 50000 node rows in ten blocks of 5000.  At a block it loads the block's rows of the features and of
  the aggregate and the whole transposed weight matrix, adds the two row blocks, multiplies by the weights into a zero
  accumulator and clips the product below at zero; the block it writes back is that function's restriction to the block's
  rows.  The blocks tile the output array, so the array ends as one whole-array function of the region's three input arrays.
-/
import proofs.«400647_j82197084111148_1_alg».proof.Proof.Gen.KernelIdeal.Frame
import proofs.«400647_j82197084111148_1_alg».proof.Proof.Spec
import proofs.«400647_j82197084111148_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The kernel's contraction "left axis 1 against right axis 0, no batch axes" is the plain matrix product's. -/
theorem dims_plain : dot_S5000x128_S128x128_S5000x128_1_0_0_1_n_n = DotDims.plain 5000 128 128 := rfl

/-- One entry of the block the body stores, from the three blocks it loads: over the extended reals the conversions to
    the narrower format change nothing, the product into the zero accumulator is the sum over the 128 features of the
    products, and the clip against the zero scalar is the maximum with 0.  So entry (p, q) is
    max (∑ k, (x0 (p, k) + x1 (p, k)) * x2 (k, q)) 0. -/
theorem payload_entry (x0 x1 : Vec Ideal S5000x128 .f32) (x2 : Vec Ideal S128x128 .f32) (p : Fin 5000) (q : Fin 128) :
    k0_pay1 (F := Ideal) x0 x1 x2 (ix2 p q)
      = max (∑ k : Fin 128, (x0 (ix2 p k) + x1 (ix2 p k)) * x2 (ix2 k q)) 0 := by
  unfold k0_pay1
  simp only [shapeCast_self]
  show max (FloatOps.matmul (DotDims.plain 5000 128 128) none (fun i => x0 i + x1 i) x2
      (constant ⟨2, ![5000, 128]⟩ .f32 0x00000000#32) (ix2 p q)) (Ideal.ofBits .f32 0x00000000#32) = _
  rw [Cert.PlainMatmul.apply, Ideal.ofBits_zero_f32]

/-- Which block each window is on at grid point `t`: the features, the aggregate and the output are on row block `t`
    (block index (t, 0)); the weights are always on their one block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's loads and its store start at the origin of their blocks. -/
theorem origin : (![0, 0] : Fin 2 → Nat) = fun _ => 0 := funext fun a => by fin_cases a <;> rfl

/-- Row `p`, feature `k` of the features block at point `t` is the features array at the node row where the output block
    puts its row `p` (row 5000 t + p on both sides) and at feature `k`. -/
theorem features_at (c : Dev nD) (t : Fin cfg0.N) (p : Fin 5000) (q k : Fin 128) :
    iblk0 V c 0 t (ix2 p k) = V c main_arg0 (ix2 ((((cfg0.win 3).blk t).view.emb (ix2 p q)) 0) k) := by
  obtain ⟨e00, e01, e10, e11, e20, e21, e30, e31⟩ := block_index t
  show V c main_arg0 (((cfg0.win 0).blk t).view.emb (ix2 p k)) = V c main_arg0 _
  refine congrArg _ (funext fun a => Fin.ext ?_)
  match a with
  | ⟨0, _⟩ =>
    show win0_0.index t (0 : Fin 2) * 5000 + 1 * p.val = win0_3.index t (0 : Fin 2) * 5000 + 1 * p.val
    omega
  | ⟨1, _⟩ =>
    show win0_0.index t (1 : Fin 2) * 128 + 1 * k.val = k.val
    omega

/-- The same for the aggregate block: its row `p` is the aggregate's node row 5000 t + p. -/
theorem aggregate_at (c : Dev nD) (t : Fin cfg0.N) (p : Fin 5000) (q k : Fin 128) :
    iblk0 V c 1 t (ix2 p k) = V c main_v7 (ix2 ((((cfg0.win 3).blk t).view.emb (ix2 p q)) 0) k) := by
  obtain ⟨e00, e01, e10, e11, e20, e21, e30, e31⟩ := block_index t
  show V c main_v7 (((cfg0.win 1).blk t).view.emb (ix2 p k)) = V c main_v7 _
  refine congrArg _ (funext fun a => Fin.ext ?_)
  match a with
  | ⟨0, _⟩ =>
    show win0_1.index t (0 : Fin 2) * 5000 + 1 * p.val = win0_3.index t (0 : Fin 2) * 5000 + 1 * p.val
    omega
  | ⟨1, _⟩ =>
    show win0_1.index t (1 : Fin 2) * 128 + 1 * k.val = k.val
    omega

/-- The weights block is the whole transposed weight matrix at every point: its entry (k, q) is the matrix's entry at
    feature `k` and at the output block's column `q`, which is column `q` of the array. -/
theorem weights_at (c : Dev nD) (t : Fin cfg0.N) (p : Fin 5000) (q k : Fin 128) :
    iblk0 V c 2 t (ix2 k q) = V c main_v8 (ix2 k ((((cfg0.win 3).blk t).view.emb (ix2 p q)) 1)) := by
  obtain ⟨e00, e01, e10, e11, e20, e21, e30, e31⟩ := block_index t
  show V c main_v8 (((cfg0.win 2).blk t).view.emb (ix2 k q)) = V c main_v8 _
  refine congrArg _ (funext fun a => Fin.ext ?_)
  match a with
  | ⟨0, _⟩ =>
    show win0_2.index t (0 : Fin 2) * 128 + 1 * k.val = k.val
    omega
  | ⟨1, _⟩ =>
    show win0_2.index t (1 : Fin 2) * 128 + 1 * q.val = win0_3.index t (1 : Fin 2) * 128 + 1 * q.val
    omega

/-- What point `t` writes back is the first layer of the three input arrays restricted to the rows of block `t`: the
    body's one store covers the block with its payload, each entry of the payload is the clipped sum of products of the
    loaded blocks, and each loaded entry is the array entry the layer reads for that output entry. -/
theorem written_back (c : Dev nD) (t : Fin cfg0.N) :
    (dat0 V c).flushed 3 t = ((cfg0.win 3).blk t).view.read (Elt Ideal)
      (Cert.Gin.hidden (V c main_arg0) (V c main_v7) (V c main_v8)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin]
  funext j
  revert j
  show ∀ j : S5000x128.Idx, k0_pay1 (iblk0 V c 0 t) (iblk0 V c 1 t) (iblk0 V c 2 t) j
      = Cert.Gin.hidden (V c main_arg0) (V c main_v7) (V c main_v8) (((cfg0.win 3).blk t).view.emb j)
  intro j
  obtain ⟨p, q, rfl⟩ : ∃ (p : Fin 5000) (q : Fin 128), j = ix2 p q := ⟨j 0, j 1, eq_ix2 j⟩
  refine (payload_entry _ _ _ p q).trans ?_
  unfold Cert.Gin.hidden Cert.Gin.combine
  refine congrArg (max · 0) (Finset.sum_congr rfl fun k _ => ?_)
  rw [features_at V c t p q k, aggregate_at V c t p q k, weights_at V c t p q k]

/-- An entry of the output array lies in point `t`'s block exactly when, on each axis, its coordinate lies in the
    block's range: from (block index) * (block extent), for one block extent. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v9).slice (win0_3.rect t)).set ↔ _
  rw [View.set_slice_whole, Rect.mem_set_unit]
  exact Iff.rfl

/-- The ten row blocks tile the output array: node row `r` is written back by point `r / 5000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, e30, e31⟩ := block_index t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- When the first region ends its output array holds the first layer of its three input arrays. -/
theorem final (c : Dev nD) :
    (dat0 (F := Ideal) V c).arrAt 3 cfg0.N
      = (Cert.Gin.hidden (V c main_arg0) (V c main_v7) (V c main_v8) : S50000x128.Idx → EReal) :=
  (dat0 V c).arrAt_eq_of_cover 3 (Cert.Gin.hidden (V c main_arg0) (V c main_v7) (V c main_v8))
    (fun t _ => written_back V c t) covered

end Cert.KernelIdeal.Region0

end
-- ==== Proof.Region1.lean ====
/-
  The second layer's kernel region: what its output array holds when the region ends.

  The region walks the 50000 node rows in ten blocks of 5000.  At a block it loads the block's rows of the hidden features
  and of their aggregate and the whole transposed 128-by-40 weight matrix, adds the two row blocks and multiplies by the
  weights into a zero accumulator; the block it writes back is that function's restriction to the block's rows.  The blocks
  tile the output array, so the array ends as one whole-array function of the region's three input arrays.
-/
import proofs.«400647_j82197084111148_1_alg».proof.Proof.Gen.KernelIdeal.Frame
import proofs.«400647_j82197084111148_1_alg».proof.Proof.Spec
import proofs.«400647_j82197084111148_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The kernel's contraction "left axis 1 against right axis 0, no batch axes" is the plain matrix product's. -/
theorem dims_plain : dot_S5000x128_S128x40_S5000x40_1_0_0_1_n_n = DotDims.plain 5000 128 40 := rfl

/-- One entry of the block the body stores, from the three blocks it loads: over the extended reals the conversions to
    the narrower format change nothing and the product into the zero accumulator is the sum over the 128 features of
    the products.  So entry (p, q) is ∑ k, (x0 (p, k) + x1 (p, k)) * x2 (k, q); nothing is clipped in this layer. -/
theorem payload_entry (x0 x1 : Vec Ideal S5000x128 .f32) (x2 : Vec Ideal S128x40 .f32) (p : Fin 5000) (q : Fin 40) :
    k1_pay1 (F := Ideal) x0 x1 x2 (ix2 p q)
      = ∑ k : Fin 128, (x0 (ix2 p k) + x1 (ix2 p k)) * x2 (ix2 k q) := by
  unfold k1_pay1
  simp only [shapeCast_self]
  show FloatOps.matmul (F := Ideal) (DotDims.plain 5000 128 40) none (fun i => x0 i + x1 i) x2
      (constant ⟨2, ![5000, 40]⟩ .f32 0x00000000#32) (ix2 p q) = _
  rw [Cert.PlainMatmul.apply]

/-- Which block each window is on at grid point `t`: the hidden features, their aggregate and the output are on row
    block `t` (block index (t, 0)); the weights are always on their one block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's loads and its store start at the origin of their blocks. -/
theorem origin : (![0, 0] : Fin 2 → Nat) = fun _ => 0 := funext fun a => by fin_cases a <;> rfl

/-- Row `p`, feature `k` of the hidden-features block at point `t` is the hidden-features array at the node row where
    the output block puts its row `p` (row 5000 t + p on both sides) and at feature `k`. -/
theorem features_at (c : Dev nD) (t : Fin cfg1.N) (p : Fin 5000) (q : Fin 40) (k : Fin 128) :
    iblk1 V c 0 t (ix2 p k) = V c main_v9 (ix2 ((((cfg1.win 3).blk t).view.emb (ix2 p q)) 0) k) := by
  obtain ⟨e00, e01, e10, e11, e20, e21, e30, e31⟩ := block_index t
  show V c main_v9 (((cfg1.win 0).blk t).view.emb (ix2 p k)) = V c main_v9 _
  refine congrArg _ (funext fun a => Fin.ext ?_)
  match a with
  | ⟨0, _⟩ =>
    show win1_0.index t (0 : Fin 2) * 5000 + 1 * p.val = win1_3.index t (0 : Fin 2) * 5000 + 1 * p.val
    omega
  | ⟨1, _⟩ =>
    show win1_0.index t (1 : Fin 2) * 128 + 1 * k.val = k.val
    omega

/-- The same for the aggregate block: its row `p` is the aggregate's node row 5000 t + p. -/
theorem aggregate_at (c : Dev nD) (t : Fin cfg1.N) (p : Fin 5000) (q : Fin 40) (k : Fin 128) :
    iblk1 V c 1 t (ix2 p k) = V c main_v13 (ix2 ((((cfg1.win 3).blk t).view.emb (ix2 p q)) 0) k) := by
  obtain ⟨e00, e01, e10, e11, e20, e21, e30, e31⟩ := block_index t
  show V c main_v13 (((cfg1.win 1).blk t).view.emb (ix2 p k)) = V c main_v13 _
  refine congrArg _ (funext fun a => Fin.ext ?_)
  match a with
  | ⟨0, _⟩ =>
    show win1_1.index t (0 : Fin 2) * 5000 + 1 * p.val = win1_3.index t (0 : Fin 2) * 5000 + 1 * p.val
    omega
  | ⟨1, _⟩ =>
    show win1_1.index t (1 : Fin 2) * 128 + 1 * k.val = k.val
    omega

/-- The weights block is the whole transposed 128-by-40 weight matrix at every point: its entry (k, q) is the matrix's
    entry at feature `k` and at the output block's column `q`, which is class `q` of the array. -/
theorem weights_at (c : Dev nD) (t : Fin cfg1.N) (p : Fin 5000) (q : Fin 40) (k : Fin 128) :
    iblk1 V c 2 t (ix2 k q) = V c main_v14 (ix2 k ((((cfg1.win 3).blk t).view.emb (ix2 p q)) 1)) := by
  obtain ⟨e00, e01, e10, e11, e20, e21, e30, e31⟩ := block_index t
  show V c main_v14 (((cfg1.win 2).blk t).view.emb (ix2 k q)) = V c main_v14 _
  refine congrArg _ (funext fun a => Fin.ext ?_)
  match a with
  | ⟨0, _⟩ =>
    show win1_2.index t (0 : Fin 2) * 128 + 1 * k.val = k.val
    omega
  | ⟨1, _⟩ =>
    show win1_2.index t (1 : Fin 2) * 40 + 1 * q.val = win1_3.index t (1 : Fin 2) * 40 + 1 * q.val
    omega

/-- What point `t` writes back is the second layer of the three input arrays restricted to the rows of block `t`: the
    body's one store covers the block with its payload, each entry of the payload is the sum of products of the loaded
    blocks, and each loaded entry is the array entry the layer reads for that output entry. -/
theorem written_back (c : Dev nD) (t : Fin cfg1.N) :
    (dat1 V c).flushed 3 t = ((cfg1.win 3).blk t).view.read (Elt Ideal)
      (Cert.Gin.logits (V c main_v9) (V c main_v13) (V c main_v14)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x40) origin]
  funext j
  revert j
  show ∀ j : S5000x40.Idx, k1_pay1 (iblk1 V c 0 t) (iblk1 V c 1 t) (iblk1 V c 2 t) j
      = Cert.Gin.logits (V c main_v9) (V c main_v13) (V c main_v14) (((cfg1.win 3).blk t).view.emb j)
  intro j
  obtain ⟨p, q, rfl⟩ : ∃ (p : Fin 5000) (q : Fin 40), j = ix2 p q := ⟨j 0, j 1, eq_ix2 j⟩
  refine (payload_entry _ _ _ p q).trans ?_
  unfold Cert.Gin.logits
  refine Finset.sum_congr rfl fun k _ => ?_
  rw [features_at V c t p q k, aggregate_at V c t p q k, weights_at V c t p q k]

/-- An entry of the output array lies in point `t`'s block exactly when, on each axis, its coordinate lies in the
    block's range: from (block index) * (block extent), for one block extent. -/
theorem mem_block (t : Fin cfg1.N) (i : S50000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v15).slice (win1_3.rect t)).set ↔ _
  rw [View.set_slice_whole, Rect.mem_set_unit]
  exact Iff.rfl

/-- The ten row blocks tile the output array: node row `r` is written back by point `r / 5000`. -/
theorem covered (i : S50000x40.Idx) :
    ∃ t : Fin cfg1.N, (cfg1.win 3).flush t = true ∧ i ∈ ((cfg1.win 3).blk t).view.set := by
  have hi0 : (i 0).val < 50000 := (i 0).isLt
  have hi1 : (i 1).val < 40 := (i 1).isLt
  obtain ⟨t, ht⟩ : ∃ t : Fin cfg1.N, t.val = (i 0).val / 5000 :=
    ⟨⟨(i 0).val / 5000, by show _ < grid1.N; rw [N_1]; omega⟩, rfl⟩
  obtain ⟨-, -, -, -, -, -, e30, e31⟩ := block_index t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 40 ≤ (i 1).val ∧ (i 1).val < win1_3.index t (1 : Fin 2) * 40 + 40
    omega

/-- When the second region ends its output array holds the second layer of its three input arrays. -/
theorem final (c : Dev nD) :
    (dat1 (F := Ideal) V c).arrAt 3 cfg1.N
      = (Cert.Gin.logits (V c main_v9) (V c main_v13) (V c main_v14) : S50000x40.Idx → EReal) :=
  (dat1 V c).arrAt_eq_of_cover 3 (Cert.Gin.logits (V c main_v9) (V c main_v13) (V c main_v14))
    (fun t _ => written_back V c t) covered

end Cert.KernelIdeal.Region1

end
-- ==== Proof.KernelHost.lean ====
/-
  The kernel's program between its regions: every array a region reads, and the result, as functions of the launch contents.

  The program runs three stretches of host operations, the first layer's region, two more stretches, and the second layer's
  region.  Each stretch is read at the buffers it writes (the edge list's two rows; the filled gather of feature rows at the
  source nodes; their sum into the destination rows; a transposed weight matrix) and at the buffers it leaves alone; each
  region's output array is the layer function of its three input arrays.  Composed from the launch: the result array holds
  the second layer of the first layer's output, each layer fed its own aggregate.
-/
import proofs.«400647_j82197084111148_1_alg».proof.Proof.Gen.KernelIdeal.Frame
import proofs.«400647_j82197084111148_1_alg».proof.Proof.HostTerms
import proofs.«400647_j82197084111148_1_alg».proof.Proof.Region0
import proofs.«400647_j82197084111148_1_alg».proof.Proof.Region1
import Idealize.ShloMosaic.Lib.StableHlo.Run

noncomputable section

namespace Cert.KernelIdeal.HostVal

open Idealize.ShloMosaic Idealize.ShloMosaic.TcCoe Idealize.SL.Sem Idealize.ShloMosaic.StableHlo
open Cert.KernelIdeal Cert.KernelIdeal.Gen Cert.KernelIdeal.HostTerms

/-! ## Each stretch of host operations, from any contents `V` -/

section Stretches

variable (V : Valuation τ sig (Elt Ideal))

/-! ### The edge list's rows -/

theorem rows_src : after (hostOps0 (F := Ideal)) V (Proc.devRef .tc main_v1) = srcRow (V (Proc.devRef .tc main_arg1)) := by
  after_results; rfl
theorem rows_dst : after (hostOps0 (F := Ideal)) V (Proc.devRef .tc main_v3) = dstRow (V (Proc.devRef .tc main_arg1)) := by
  after_results; rfl
theorem rows_arg0 : after (hostOps0 (F := Ideal)) V (Proc.devRef .tc main_arg0) = V (Proc.devRef .tc main_arg0) := by
  after_results
theorem rows_arg2 : after (hostOps0 (F := Ideal)) V (Proc.devRef .tc main_arg2) = V (Proc.devRef .tc main_arg2) := by
  after_results
theorem rows_arg3 : after (hostOps0 (F := Ideal)) V (Proc.devRef .tc main_arg3) = V (Proc.devRef .tc main_arg3) := by
  after_results

/-! ### The first layer's aggregate and weights -/

theorem agg1 : after (hostOps0_2 (F := Ideal)) V (Proc.devRef .tc main_v7)
    = scatterInto (V (Proc.devRef .tc main_v3)) (V (Proc.devRef .tc main_v4)) := by
  after_results
theorem wt1 : after (hostOps0_2 (F := Ideal)) V (Proc.devRef .tc main_v8)
    = weights1 (V (Proc.devRef .tc main_arg2)) := by
  after_results
theorem agg1_arg0 : after (hostOps0_2 (F := Ideal)) V (Proc.devRef .tc main_arg0) = V (Proc.devRef .tc main_arg0) := by
  after_results
theorem agg1_arg3 : after (hostOps0_2 (F := Ideal)) V (Proc.devRef .tc main_arg3) = V (Proc.devRef .tc main_arg3) := by
  after_results
theorem agg1_v1 : after (hostOps0_2 (F := Ideal)) V (Proc.devRef .tc main_v1) = V (Proc.devRef .tc main_v1) := by
  after_results
theorem agg1_v3 : after (hostOps0_2 (F := Ideal)) V (Proc.devRef .tc main_v3) = V (Proc.devRef .tc main_v3) := by
  after_results

/-! ### The second layer's aggregate and weights -/

theorem agg2 : after (hostOps1_1 (F := Ideal)) V (Proc.devRef .tc main_v13)
    = scatterInto (V (Proc.devRef .tc main_v3)) (V (Proc.devRef .tc main_v10)) := by
  after_results
theorem wt2 : after (hostOps1_1 (F := Ideal)) V (Proc.devRef .tc main_v14)
    = weights2 (V (Proc.devRef .tc main_arg3)) := by
  after_results
theorem agg2_v9 : after (hostOps1_1 (F := Ideal)) V (Proc.devRef .tc main_v9) = V (Proc.devRef .tc main_v9) := by
  after_results

/-! ### The gathers with a fill -/

/-- Contents carried to a buffer's own type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

set_option maxHeartbeats 2000000 in
theorem take1 : after (hostOps0_1 (F := Ideal)) V (Proc.devRef .tc main_v4)
    = takeFill (V (Proc.devRef .tc main_arg0)) (V (Proc.devRef .tc main_v1)) := by
  have k4 : ∀ (Y : FVec Ideal S800000x128 .f32),
      (TRef.of main_v4 : TRef sig ⟨S800000x128, .f32⟩).toBuf (Val := Elt Ideal) Y = Y := fun _ => rfl
  have k0 : ∀ Z, (TRef.of main_arg0 : TRef sig ⟨S50000x128, .f32⟩).ofBuf (Val := Elt Ideal) Z = Z := fun _ => rfl
  have k1 : ∀ Z, (TRef.of main_v1 : TRef sig ⟨S800000, .i32⟩).ofBuf (Val := Elt Ideal) Z = Z := fun _ => rfl
  after_results_simp
  simp only [ofBuf_toBuf]
  rw [k4, k0, k1]
set_option maxHeartbeats 2000000 in
theorem take1_arg0 : after (hostOps0_1 (F := Ideal)) V (Proc.devRef .tc main_arg0) = V (Proc.devRef .tc main_arg0) := by
  after_results_simp
set_option maxHeartbeats 2000000 in
theorem take1_arg2 : after (hostOps0_1 (F := Ideal)) V (Proc.devRef .tc main_arg2) = V (Proc.devRef .tc main_arg2) := by
  after_results_simp
set_option maxHeartbeats 2000000 in
theorem take1_arg3 : after (hostOps0_1 (F := Ideal)) V (Proc.devRef .tc main_arg3) = V (Proc.devRef .tc main_arg3) := by
  after_results_simp
set_option maxHeartbeats 2000000 in
theorem take1_v1 : after (hostOps0_1 (F := Ideal)) V (Proc.devRef .tc main_v1) = V (Proc.devRef .tc main_v1) := by
  after_results_simp
set_option maxHeartbeats 2000000 in
theorem take1_v3 : after (hostOps0_1 (F := Ideal)) V (Proc.devRef .tc main_v3) = V (Proc.devRef .tc main_v3) := by
  after_results_simp

set_option maxHeartbeats 2000000 in
theorem take2 : after (hostOps1 (F := Ideal)) V (Proc.devRef .tc main_v10)
    = takeFill (V (Proc.devRef .tc main_v9)) (V (Proc.devRef .tc main_v1)) := by
  have k10 : ∀ (Y : FVec Ideal S800000x128 .f32),
      (TRef.of main_v10 : TRef sig ⟨S800000x128, .f32⟩).toBuf (Val := Elt Ideal) Y = Y := fun _ => rfl
  have k9 : ∀ Z, (TRef.of main_v9 : TRef sig ⟨S50000x128, .f32⟩).ofBuf (Val := Elt Ideal) Z = Z := fun _ => rfl
  have k1 : ∀ Z, (TRef.of main_v1 : TRef sig ⟨S800000, .i32⟩).ofBuf (Val := Elt Ideal) Z = Z := fun _ => rfl
  after_results_simp
  simp only [ofBuf_toBuf]
  rw [k10, k9, k1]
set_option maxHeartbeats 2000000 in
theorem take2_v3 : after (hostOps1 (F := Ideal)) V (Proc.devRef .tc main_v3) = V (Proc.devRef .tc main_v3) := by
  after_results_simp
set_option maxHeartbeats 2000000 in
theorem take2_v9 : after (hostOps1 (F := Ideal)) V (Proc.devRef .tc main_v9) = V (Proc.devRef .tc main_v9) := by
  after_results_simp
set_option maxHeartbeats 2000000 in
theorem take2_arg3 : after (hostOps1 (F := Ideal)) V (Proc.devRef .tc main_arg3) = V (Proc.devRef .tc main_arg3) := by
  after_results_simp

end Stretches

/-! ## The boundaries, from the launch contents -/

section Boundaries

variable (m : (ℓ : Loc nD τ sig) → Buf (Elt Ideal) ℓ) (ρ : Dev nD → PrngReg) (c : Dev nD)

/-- The launch contents: the features, the edge list, the two weight matrices. -/
abbrev feat : FVec Ideal S50000x128 .f32 := m ((c : Thread nD τ).loc main_arg0)
abbrev edges : IVec S2x800000 32 := m ((c : Thread nD τ).loc main_arg1)
abbrev wA : FVec Ideal S128x128 .f32 := m ((c : Thread nD τ).loc main_arg2)
abbrev wB : FVec Ideal S40x128 .f32 := m ((c : Thread nD τ).loc main_arg3)

/-- The aggregate of a feature array, as the kernel's program computes it: the filled gather at the source nodes, summed
    into the destination rows. -/
abbrev aggFill (x : FVec Ideal S50000x128 .f32) : FVec Ideal S50000x128 .f32 :=
  scatterInto (dstRow (edges m c)) (takeFill x (srcRow (edges m c)))

/-- The first layer's output. -/
def hid : FVec Ideal S50000x128 .f32 :=
  Cert.Gin.hidden (feat m c) (aggFill m c (feat m c)) (weights1 (wA m c))

/-! ### After the first stretch -/

theorem W1_src : W1 m ρ c (Proc.devRef .tc main_v1) = srcRow (edges m c) := rows_src (W0 m ρ c)
theorem W1_dst : W1 m ρ c (Proc.devRef .tc main_v3) = dstRow (edges m c) := rows_dst (W0 m ρ c)
theorem W1_arg0 : W1 m ρ c (Proc.devRef .tc main_arg0) = feat m c := rows_arg0 (W0 m ρ c)
theorem W1_arg2 : W1 m ρ c (Proc.devRef .tc main_arg2) = wA m c := rows_arg2 (W0 m ρ c)
theorem W1_arg3 : W1 m ρ c (Proc.devRef .tc main_arg3) = wB m c := rows_arg3 (W0 m ρ c)

/-! ### After the first gather -/

theorem W2_take : W2 m ρ c (Proc.devRef .tc main_v4) = takeFill (feat m c) (srcRow (edges m c)) := by
  refine (take1 (W1 m ρ c)).trans ?_
  rw [W1_arg0 m ρ c, W1_src m ρ c]
theorem W2_src : W2 m ρ c (Proc.devRef .tc main_v1) = srcRow (edges m c) := (take1_v1 (W1 m ρ c)).trans (W1_src m ρ c)
theorem W2_dst : W2 m ρ c (Proc.devRef .tc main_v3) = dstRow (edges m c) := (take1_v3 (W1 m ρ c)).trans (W1_dst m ρ c)
theorem W2_arg0 : W2 m ρ c (Proc.devRef .tc main_arg0) = feat m c := (take1_arg0 (W1 m ρ c)).trans (W1_arg0 m ρ c)
theorem W2_arg2 : W2 m ρ c (Proc.devRef .tc main_arg2) = wA m c := (take1_arg2 (W1 m ρ c)).trans (W1_arg2 m ρ c)
theorem W2_arg3 : W2 m ρ c (Proc.devRef .tc main_arg3) = wB m c := (take1_arg3 (W1 m ρ c)).trans (W1_arg3 m ρ c)

/-! ### At the first region's entry -/

theorem W3_agg : W3 m ρ c (Proc.devRef .tc main_v7) = aggFill m c (feat m c) := by
  refine (agg1 (W2 m ρ c)).trans ?_
  rw [W2_dst m ρ c, W2_take m ρ c]
theorem W3_wt : W3 m ρ c (Proc.devRef .tc main_v8) = weights1 (wA m c) := by
  refine (wt1 (W2 m ρ c)).trans ?_
  rw [W2_arg2 m ρ c]
theorem W3_arg0 : W3 m ρ c (Proc.devRef .tc main_arg0) = feat m c := (agg1_arg0 (W2 m ρ c)).trans (W2_arg0 m ρ c)
theorem W3_arg3 : W3 m ρ c (Proc.devRef .tc main_arg3) = wB m c := (agg1_arg3 (W2 m ρ c)).trans (W2_arg3 m ρ c)
theorem W3_src : W3 m ρ c (Proc.devRef .tc main_v1) = srcRow (edges m c) := (agg1_v1 (W2 m ρ c)).trans (W2_src m ρ c)
theorem W3_dst : W3 m ρ c (Proc.devRef .tc main_v3) = dstRow (edges m c) := (agg1_v3 (W2 m ρ c)).trans (W2_dst m ρ c)

/-! ### At the first region's exit -/

theorem W4_hid : W4 m ρ c (Proc.devRef .tc main_v9) = hid m c := by
  refine (W4_arr m ρ c 3).trans ((Cert.KernelIdeal.Region0.final (V3 m ρ) c).trans ?_)
  show Cert.Gin.hidden (W3 m ρ c (Proc.devRef .tc main_arg0)) (W3 m ρ c (Proc.devRef .tc main_v7))
      (W3 m ρ c (Proc.devRef .tc main_v8)) = _
  rw [W3_arg0 m ρ c, W3_agg m ρ c, W3_wt m ρ c]
  rfl
theorem W4_src : W4 m ρ c (Proc.devRef .tc main_v1) = srcRow (edges m c) :=
  (W4_of_ne m ρ c main_v1 (by decide)).trans (W3_src m ρ c)
theorem W4_dst : W4 m ρ c (Proc.devRef .tc main_v3) = dstRow (edges m c) :=
  (W4_of_ne m ρ c main_v3 (by decide)).trans (W3_dst m ρ c)
theorem W4_arg3 : W4 m ρ c (Proc.devRef .tc main_arg3) = wB m c :=
  (W4_of_ne m ρ c main_arg3 (by decide)).trans (W3_arg3 m ρ c)

/-! ### After the second gather -/

theorem W5_take : W5 m ρ c (Proc.devRef .tc main_v10) = takeFill (hid m c) (srcRow (edges m c)) := by
  refine (take2 (W4 m ρ c)).trans ?_
  rw [W4_hid m ρ c, W4_src m ρ c]
theorem W5_dst : W5 m ρ c (Proc.devRef .tc main_v3) = dstRow (edges m c) := (take2_v3 (W4 m ρ c)).trans (W4_dst m ρ c)
theorem W5_hid : W5 m ρ c (Proc.devRef .tc main_v9) = hid m c := (take2_v9 (W4 m ρ c)).trans (W4_hid m ρ c)
theorem W5_arg3 : W5 m ρ c (Proc.devRef .tc main_arg3) = wB m c := (take2_arg3 (W4 m ρ c)).trans (W4_arg3 m ρ c)

/-! ### At the second region's entry -/

theorem W6_agg : W6 m ρ c (Proc.devRef .tc main_v13) = aggFill m c (hid m c) := by
  refine (agg2 (W5 m ρ c)).trans ?_
  rw [W5_dst m ρ c, W5_take m ρ c]
theorem W6_wt : W6 m ρ c (Proc.devRef .tc main_v14) = weights2 (wB m c) := by
  refine (wt2 (W5 m ρ c)).trans ?_
  rw [W5_arg3 m ρ c]
theorem W6_hid : W6 m ρ c (Proc.devRef .tc main_v9) = hid m c := (agg2_v9 (W5 m ρ c)).trans (W5_hid m ρ c)

/-! ### The result -/

/-- When @main returns, the result array holds the second layer of the first layer's output. -/
theorem result : W7 m ρ c (Proc.devRef .tc main_v15)
    = (Cert.Gin.logits (hid m c) (aggFill m c (hid m c)) (weights2 (wB m c)) : S50000x40.Idx → EReal) := by
  refine (W7_arr m ρ c 3).trans ((Cert.KernelIdeal.Region1.final (V6 m ρ) c).trans ?_)
  show Cert.Gin.logits (W6 m ρ c (Proc.devRef .tc main_v9)) (W6 m ρ c (Proc.devRef .tc main_v13))
      (W6 m ρ c (Proc.devRef .tc main_v14)) = _
  rw [W6_hid m ρ c, W6_agg m ρ c, W6_wt m ρ c]

end Boundaries

end Cert.KernelIdeal.HostVal

end
-- ==== Proof.LibHostDot.lean ====
/-
  Products and sums read at an entry.

  The host's `dot_general` with the plain dimension numbers (contract the left operand's axis 1 with the right operand's
  axis 0, no batch axes) has, at entry (r, c), the sum over k of a (r, k) * b (k, c) — the same sum as the kernel's matrix
  product into the zero accumulator.  A finite sum of reals, read in the extended reals, is the sum of the terms read
  there; so a sum of products of real entries is the real sum of products.
-/
import proofs.«400647_j82197084111148_1_alg».proof.Proof.LibPlainMatmul
import Mathlib.Data.EReal.Basic
import Mathlib.Algebra.BigOperators.Group.Finset.Basic

noncomputable section

namespace Cert.Dots

open Idealize.ShloMosaic Idealize.ShloMosaic.ValueIdx

/-- The real sum, read in the extended reals, is the sum of the terms read there. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of real entries is the real sum of products. -/
theorem sum_coe_mul {ι : Type} [Fintype ι] (f g : ι → ℝ) :
    ∑ k, ((f k : ℝ) : EReal) * ((g k : ℝ) : EReal) = ((∑ k, f k * g k : ℝ) : EReal) := by
  rw [coe_sum]
  exact Finset.sum_congr rfl fun k _ => (EReal.coe_mul _ _).symm

variable {M K N : ℕ}

/-- Entry (r, c) of the host's plain product is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

end Cert.Dots

end
-- ==== Proof.RefLayers.lean ====
/-
  The reference's two layers, read at an entry.

  The reference multiplies the features by one before it adds the aggregate, and takes the host's plain matrix product with
  the transposed weights; the first layer is clipped below at zero.  One times an extended real is that extended real, the
  host's product at entry (i, j) is the sum over k of the left operand's (i, k) times the right operand's (k, j), and the
  maximum against a zero array is the maximum against zero: the two layers are the functions `hidden` and `logits`.
-/
import proofs.«400647_j82197084111148_1_alg».proof.ReferenceIdeal
import proofs.«400647_j82197084111148_1_alg».proof.Proof.Spec
import proofs.«400647_j82197084111148_1_alg».proof.Proof.LibHostDot
import Idealize.ShloMosaic.Lib.IdealHost
import Idealize.ShloMosaic.Lib.ValueIdx
import Idealize.ShloMosaic.Lib.Pipeline.Value

noncomputable section

namespace Cert.ReferenceIdeal.Layers

open Idealize.ShloMosaic Idealize.ShloMosaic.ValueIdx Cert.ReferenceIdeal
open Cert.ReferenceIdeal.Facts₀ Cert.ReferenceIdeal.Facts

variable [Cert.ReferenceIdeal.Facts]

/-- The first layer's product contracts the left operand's axis 1 with the right operand's axis 0. -/
theorem dot1_plain : dot_S50000x128_S128x128_S50000x128_1_0_0_1_n_n = DotDims.plain 50000 128 128 := rfl

/-- The second layer's product contracts the left operand's axis 1 with the right operand's axis 0. -/
theorem dot2_plain : dot_S50000x128_S128x40_S50000x40_1_0_0_1_n_n = DotDims.plain 50000 128 40 := rfl

/-- An array of ones, read at an entry. -/
theorem ones_apply (i : S50000x128.Idx) :
    broadcastInDim S50000x128 ![] bcast_S_S50000x128 (constant (F := Ideal) S_ .f32 0x3F800000#32) i = (1 : EReal) := by
  rw [broadcastInDim_apply _ bcast_S_S50000x128 _ i (fun a => a.elim0) (fun a => a.elim0), constant_apply]
  exact Ideal.ofBits_one_f32

/-- An array of zeros, read at an entry. -/
theorem zeros_apply (i : S50000x128.Idx) :
    broadcastInDim S50000x128 ![] bcast_S_S50000x128 (constant (F := Ideal) S_ .f32 0x00000000#32) i = (0 : EReal) := by
  rw [broadcastInDim_apply _ bcast_S_S50000x128 _ i (fun a => a.elim0) (fun a => a.elim0), constant_apply]
  exact Ideal.ofBits_zero_f32

/-- One times the features plus the aggregate, at an entry. -/
theorem combined_apply (X A : FVec Ideal S50000x128 .f32) (i : S50000x128.Idx) :
    addf (mulf (broadcastInDim S50000x128 ![] bcast_S_S50000x128 (constant (F := Ideal) S_ .f32 0x3F800000#32)) X) A i
      = X i + A i := by
  show (broadcastInDim S50000x128 ![] bcast_S_S50000x128 (constant (F := Ideal) S_ .f32 0x3F800000#32) i : EReal) * X i + A i = _
  rw [ones_apply, one_mul]

/-- The reference's first layer is `hidden`. -/
theorem hidden_eq (X A : FVec Ideal S50000x128 .f32) (Wt : FVec Ideal S128x128 .f32) :
    maximumf (Host.dotGeneral dot_S50000x128_S128x128_S50000x128_1_0_0_1_n_n none
        (addf (mulf (broadcastInDim S50000x128 ![] bcast_S_S50000x128 (constant (F := Ideal) S_ .f32 0x3F800000#32)) X) A) Wt)
      (broadcastInDim S50000x128 ![] bcast_S_S50000x128 (constant (F := Ideal) S_ .f32 0x00000000#32))
    = Cert.Gin.hidden X A Wt := by
  funext i
  obtain ⟨r, c, rfl⟩ : ∃ (r : Fin 50000) (c : Fin 128), i = ix2 r c := ⟨i 0, i 1, eq_ix2 i⟩
  rw [dot1_plain]
  show max (Host.dotGeneral (DotDims.plain 50000 128 128) none _ Wt (ix2 r c))
      (broadcastInDim S50000x128 ![] bcast_S_S50000x128 (constant (F := Ideal) S_ .f32 0x00000000#32) (ix2 r c)) = _
  rw [zeros_apply, Cert.Dots.hostDot_apply]
  unfold Cert.Gin.hidden Cert.Gin.combine
  refine congrArg (fun s => max s (0 : EReal)) (Finset.sum_congr rfl fun k _ => ?_)
  rw [combined_apply]

/-- The reference's second layer is `logits`. -/
theorem logits_eq (X A : FVec Ideal S50000x128 .f32) (Wt : FVec Ideal S128x40 .f32) :
    Host.dotGeneral dot_S50000x128_S128x40_S50000x40_1_0_0_1_n_n none
        (addf (mulf (broadcastInDim S50000x128 ![] bcast_S_S50000x128 (constant (F := Ideal) S_ .f32 0x3F800000#32)) X) A) Wt
    = Cert.Gin.logits X A Wt := by
  funext i
  obtain ⟨r, c, rfl⟩ : ∃ (r : Fin 50000) (c : Fin 40), i = ix2 r c := ⟨i 0, i 1, eq_ix2 i⟩
  rw [dot2_plain, Cert.Dots.hostDot_apply]
  unfold Cert.Gin.logits
  refine Finset.sum_congr rfl fun k _ => ?_
  rw [combined_apply]

end Cert.ReferenceIdeal.Layers

end
-- ==== Proof.Domain.lean ====
/-
  The source-node indices are in range, and what follows from it for the row gather.

  The kernel's program gathers feature rows with a fill: an entry whose (wrapped) index falls outside [0, 49999] is replaced
  by a fill value, decided by a mask computed from the index column.  When every source index lies in [0, 50000) nothing
  wraps, every mask entry is set, and the filled gather is the plain gather.
-/
import proofs.«400647_j82197084111148_1_alg».proof.Proof.HostTerms
import proofs.«400647_j82197084111148_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.KernelIdeal.Domain

open Idealize.ShloMosaic Idealize.ShloMosaic.ValueIdx Cert.KernelIdeal
open Cert.KernelIdeal.Facts₀ Cert.KernelIdeal.Facts Cert.KernelIdeal.HostTerms

variable [Cert.KernelIdeal.Facts]

/-! ### Signed compares of a word known to lie in [0, 50000) -/

/-- A nonnegative word is not below zero. -/
theorem cmpi_slt_zero_of_nonneg {w : BitVec 32} (h : 0 ≤ w.toInt) : IntOp.cmpi .slt w 0#32 = 0#1 := by
  rcases BitVec.eq_zero_or_eq_one (IntOp.cmpi .slt w 0#32) with h0 | h1
  · exact h0
  · rw [IntOp.cmpi_slt] at h1
    have hz : (0#32 : BitVec 32).toInt = 0 := by decide
    omega

/-- A nonnegative word is at least zero. -/
theorem cmpi_sge_zero_of_nonneg {w : BitVec 32} (h : 0 ≤ w.toInt) : IntOp.cmpi .sge w 0#32 = 1#1 := by
  rw [IntOp.cmpi_sge]
  have hz : (0#32 : BitVec 32).toInt = 0 := by decide
  omega

/-- A word below 50000 is at most 49999. -/
theorem cmpi_sle_of_lt {w : BitVec 32} (h : w.toInt < 50000) : IntOp.cmpi .sle w 49999#32 = 1#1 := by
  rw [IntOp.cmpi_sle]
  have hz : (49999#32 : BitVec 32).toInt = 49999 := by decide
  omega

/-! ### An and-reduction of all ones -/

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_ones f l fun n hn => h n (List.mem_cons_of_mem _ hn)

/-- An and-reduction, from 1, of an array of ones is 1 at every result index. -/
theorem reduce_andi_of_all {s t u : Shape} {axes : List (Fin s.rank)} (p : s.Idx → BitVec 1) (init : u.Idx → BitVec 1)
    (h : s.ReducesTo axes t) (hu : 0 < u.numel) (hp : ∀ i, p i = 1#1) (hinit : ∀ k, init k = 1#1) (j : t.Idx) :
    Host.reduce IntOp.andi p init h hu j = 1#1 := by
  rw [Host.reduce_eq_foldl, hinit]
  exact foldl_andi_ones p _ fun n _ => hp n

/-- No index is negative, so nothing wraps. -/
theorem wrapIdx_eq (v : IVec S800000 32) (hv : ∀ e : S800000.Idx, 0 ≤ (v e).toInt ∧ (v e).toInt < 50000) :
    wrapIdx v = v := by
  funext e
  show Scalar.select (IntOp.cmpi .slt (v e) 0#32) (IntOp.addi (v e) 50000#32) (v e) = v e
  rw [cmpi_slt_zero_of_nonneg (hv e).1]
  exact if_neg (by decide)

/-- With every index in [0, 50000) the filled gather is the plain gather. -/
theorem takeFill_eq_gather (x : FVec Ideal S50000x128 .f32) (v : IVec S800000 32)
    (hv : ∀ e : S800000.Idx, 0 ≤ (v e).toInt ∧ (v e).toInt < 50000) :
    takeFill x v = gatherRows x v := by
  have hw := wrapIdx_eq v hv
  funext i
  -- the mask entry is 1: every entry of the column passes both compares
  have hmask : inRange v i = 1#1 := by
    show Host.reduce IntOp.andi _ _ _ _ _ = 1#1
    apply reduce_andi_of_all
    · intro k
      obtain ⟨e, he⟩ : ∃ e, idxCol v k = v e := ⟨_, by show wrapIdx v _ = _; rw [hw]⟩
      show IntOp.andi (IntOp.cmpi .sge (idxCol v k) 0#32) (IntOp.cmpi .sle (idxCol v k) 49999#32) = 1#1
      rw [he, cmpi_sge_zero_of_nonneg (hv e).1, cmpi_sle_of_lt (hv e).2]
      decide
    · intro k; rfl
  show Scalar.select (inRange v i) _ _ = _
  rw [hmask]
  exact if_pos rfl

/-- The precondition says every source index lies in [0, 50000). -/
theorem src_in_range [Cert.Pre_finite_inputs.Facts] (x : FVec Ideal S50000x128 .f32) (ei : IVec S2x800000 32)
    (w1 : FVec Ideal S128x128 .f32) (w2 : FVec Ideal S40x128 .f32)
    (h : Cert.Pre_finite_inputs.fn (F := Ideal) x ei w1 w2 = fun _ => 1#1) :
    ∀ e : S800000.Idx, 0 ≤ (srcRow ei e).toInt ∧ (srcRow ei e).toInt < 50000 := by
  have h0 := congrFun h ValueIdx.ix0
  dsimp only [Cert.Pre_finite_inputs.fn, Cert.Pre_finite_inputs.fn_part1] at h0
  change IntOp.andi _ _ = 1#1 at h0
  -- the last conjunct: the and-reduction over all edges of (src ≥ 0) & (src < 50000)
  have h1 := (IntOp.andi_eq_one.1 h0).2
  haveI : Subsingleton Cert.Pre_finite_inputs.S_.Idx := ⟨fun a b => funext fun d => d.elim0⟩
  intro e
  have h2 := Host.reduce_andi_all _ _ _ _ _ h1 e
  change IntOp.andi (IntOp.cmpi .sge (srcRow ei e) 0#32) (IntOp.cmpi .slt (srcRow ei e) 50000#32) = 1#1 at h2
  obtain ⟨ha, hb⟩ := IntOp.andi_eq_one.1 h2
  rw [IntOp.cmpi_sge] at ha
  rw [IntOp.cmpi_slt] at hb
  have hz : (0#32 : BitVec 32).toInt = 0 := by decide
  have hm : (50000#32 : BitVec 32).toInt = 50000 := by decide
  omega

end Cert.KernelIdeal.Domain

end
-- ==== Proof.Bridge.lean ====
/-
  The reference's result is the kernel's.

  The reference applies, layer by layer, the same host operations as the kernel's program — wrap the source indices, gather
  the feature rows, sum them into the destination rows, transpose the weights — except that its gather has no fill, and its
  two layers are the functions `hidden` and `logits`.  With every source index inside [0, 50000) the kernel's filled
  gather is the plain gather, so on memories that agree on the four argument arrays the two results are one function of them.
-/
import proofs.«400647_j82197084111148_1_alg».proof.Proof.Gen.ReferenceIdeal.Run
import proofs.«400647_j82197084111148_1_alg».proof.Proof.RefLayers
import proofs.«400647_j82197084111148_1_alg».proof.Proof.KernelHost
import proofs.«400647_j82197084111148_1_alg».proof.Proof.Domain

noncomputable section

namespace Cert.ReferenceIdeal.Bridge

open Idealize.ShloMosaic Idealize.ShloMosaic.TcCoe Idealize.SL.Sem
open Cert.ReferenceIdeal Cert.ReferenceIdeal.Facts₀ Cert.ReferenceIdeal.Facts

section

open Cert.KernelIdeal.HostTerms

/-- The reference's result as the two layers over the plain aggregate: its two layers are `hidden` and `logits`, and what is
    left is, operation by operation, the kernel program's host side without the fill. -/
theorem reference_eq (m' : (ℓ : Loc nD τ sig) → Buf (Elt Ideal) ℓ) (c : Dev nD) :
    Value.res_main_v38 (F := Ideal) m' c
      = (Cert.Gin.logits
          (Cert.Gin.hidden (m' ((c.tc : Thread nD τ).loc main_arg0))
            (scatterInto (dstRow (m' ((c.tc : Thread nD τ).loc main_arg1)))
              (gatherRows (m' ((c.tc : Thread nD τ).loc main_arg0)) (srcRow (m' ((c.tc : Thread nD τ).loc main_arg1)))))
            (weights1 (m' ((c.tc : Thread nD τ).loc main_arg2))))
          (scatterInto (dstRow (m' ((c.tc : Thread nD τ).loc main_arg1)))
            (gatherRows
              (Cert.Gin.hidden (m' ((c.tc : Thread nD τ).loc main_arg0))
                (scatterInto (dstRow (m' ((c.tc : Thread nD τ).loc main_arg1)))
                  (gatherRows (m' ((c.tc : Thread nD τ).loc main_arg0)) (srcRow (m' ((c.tc : Thread nD τ).loc main_arg1)))))
                (weights1 (m' ((c.tc : Thread nD τ).loc main_arg2))))
              (srcRow (m' ((c.tc : Thread nD τ).loc main_arg1)))))
          (weights2 (m' ((c.tc : Thread nD τ).loc main_arg3))) : S50000x40.Idx → EReal) := by
  unfold Value.res_main_v38
  rw [Layers.hidden_eq, Layers.logits_eq]
  rfl

end

end Cert.ReferenceIdeal.Bridge

namespace Cert.Bridge

open Idealize.ShloMosaic Idealize.ShloMosaic.TcCoe Idealize.SL.Sem
open Cert.KernelIdeal.HostTerms Cert.KernelIdeal.HostVal

/-- On memories that agree on the arguments and satisfy the precondition, the reference's result is the kernel's. -/
theorem results_agree [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.res_main_v38 (F := Ideal) m' c
      = (Cert.Gin.logits (hid m c) (aggFill m c (hid m c)) (weights2 (wB m c)) : Cert.KernelIdeal.S50000x40.Idx → EReal) := by
  have hv := Cert.KernelIdeal.Domain.src_in_range _ _ _ _ hpre
  rw [Cert.ReferenceIdeal.Bridge.reference_eq, h0, h1, h2, h3]
  unfold hid aggFill
  rw [Cert.KernelIdeal.Domain.takeFill_eq_gather _ _ hv, Cert.KernelIdeal.Domain.takeFill_eq_gather _ _ hv]

end Cert.Bridge

end
-- ==== Proof.lean ====
/-
  Two graph-convolution layers: a kernel program against its plain reference, over the extended reals.

  A layer takes node features X [50000, 128], an edge list (row 0 the source node, row 1 the destination node of each of
  800000 edges) and a weight matrix W.  It adds to every node's row the sum of the rows of the nodes with an edge into it,
  and multiplies by the transposed weights:  out (i, j) = ∑ k, (X (i, k) + A (i, k)) * W (j, k),  where
  A (i, ·) = ∑ over edges e with dst e = i of X (src e, ·).  The first layer clips its output below at zero and feeds the
  second, whose weights have 40 rows.

  The kernel's program forms each aggregate on the host — a row gather WITH A FILL for out-of-range indices, then a sum
  into the destination rows — and runs the combine-multiply(-clip) step as a kernel over ten blocks of 5000 node rows; the
  reference does everything on the host, multiplies the features by one before adding, and gathers without a fill (an
  out-of-range index is clamped).  Under the precondition every float input is finite AND every source index lies in
  [0, 50000): there the fill never applies, so both programs gather the same rows.  The remaining differences vanish over
  the extended reals: one times x is x, a change of float format is the identity, the kernel's product into a zero
  accumulator and the host's product are the same sum of 128 products, and the blocks tile the node rows.

  The frames of the two kernel programs are the generated ones; the reference's frame is its generated run with the result
  dropped; nothing was rewritten on the way to the idealized kernel, so there is nothing to preserve; the value claim runs
  the kernel's program with the result array kept, reads it back to the launch contents, and meets the reference's run.
-/
import proofs.«400647_j82197084111148_1_alg».proof.Defs
import proofs.«400647_j82197084111148_1_alg».proof.Proof.Gen.Kernel
import proofs.«400647_j82197084111148_1_alg».proof.Proof.Gen.Kernel.Skeleton
import proofs.«400647_j82197084111148_1_alg».proof.Proof.Gen.Kernel.Launch
import proofs.«400647_j82197084111148_1_alg».proof.Proof.Gen.Kernel.Points
import proofs.«400647_j82197084111148_1_alg».proof.Proof.Gen.Kernel.Frame
import proofs.«400647_j82197084111148_1_alg».proof.Proof.Gen.KernelIdeal
import proofs.«400647_j82197084111148_1_alg».proof.Proof.Gen.KernelIdeal.Skeleton
import proofs.«400647_j82197084111148_1_alg».proof.Proof.Gen.KernelIdeal.Launch
import proofs.«400647_j82197084111148_1_alg».proof.Proof.Gen.KernelIdeal.Points
import proofs.«400647_j82197084111148_1_alg».proof.Proof.Gen.KernelIdeal.Frame
import proofs.«400647_j82197084111148_1_alg».proof.Proof.Gen.ReferenceIdeal
import proofs.«400647_j82197084111148_1_alg».proof.Proof.Gen.ReferenceIdeal.Run
import proofs.«400647_j82197084111148_1_alg».proof.Proof.Gen.Pre_finite_inputs
import proofs.«400647_j82197084111148_1_alg».proof.Proof.KernelRun
import proofs.«400647_j82197084111148_1_alg».proof.Proof.KernelHost
import proofs.«400647_j82197084111148_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the second layer of the first layer's output, each layer over the plain aggregate of its
    input: the kernel's program by its run read back to the launch contents, the reference by its own run and the
    agreement of the arguments. -/
theorem algebraic : Cert.algebraic_KernelIdeal_ReferenceIdeal := by
  intro m ρ m' ρ' hpre hagree
  refine ⟨fun c => Cert.Gin.logits (Cert.KernelIdeal.HostVal.hid m c)
      (Cert.KernelIdeal.HostVal.aggFill m c (Cert.KernelIdeal.HostVal.hid m c))
      (Cert.KernelIdeal.HostTerms.weights2 (Cert.KernelIdeal.HostVal.wB m c)), ?_, ?_⟩
  · exact (θ_run Cert.KernelIdeal.defs _ _).mono
      (fun _ h c => ⟨(h c).1.trans (Cert.KernelIdeal.HostVal.result m ρ c), (h c).2⟩)
      (Cert.KernelIdeal.Run.run (F := Ideal) m ρ)
  · exact (θ_run Cert.ReferenceIdeal.defs _ _).mono
      (fun _ h c => ⟨(h c).1.trans (Cert.Bridge.results_agree m m' c (hpre c) (hagree c).1 (hagree c).2.1
        (hagree c).2.2.1 (hagree c).2.2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
